-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S768x128 : Shape := ⟨2, ![768, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S768x128 : S_.BroadcastsInDim S768x128 (![] : Fin 0 → Fin S768x128.rank)
  reducesTo_S768x128_S_d0_1 : S768x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S128 .f32) (main_arg5 : FVec F S2x128 .f32) (main_arg6 : FVec F S2 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S768x128 .f32) (main_arg1 : FVec F S256x256 .f32) (main_arg2 : FVec F S256 .f32) (main_arg3 : FVec F S128x256 .f32) (main_arg4 : FVec F S128 .f32) (main_arg5 : FVec F S2x128 .f32) (main_arg6 : FVec F S2 .f32) : IVec S_ 1 :=
  let main_v0 : FVec F S768x128 .f32 := Host.absf main_arg0
  let main_cst : FVec F S_ .f32 := constant S_ .f32 0x7F800000#32
  let main_v1 : FVec F S768x128 .f32 := broadcastInDim S768x128 ![] bcast_S_S768x128 main_cst
  let main_v2 : IVec S768x128 1 := cmpf .olt main_v0 main_v1
  let main_c : IVec S_ 1 := constantI S_ 1 1#1
  let main_v3 : IVec S_ 1 := (fun x v => Host.reduce IntOp.andi x v reducesTo_S768x128_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S768x128 : Shape := ⟨2, ![768, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S256x128 : Shape := ⟨2, ![256, 128]⟩
abbrev S768x256 : Shape := ⟨2, ![768, 256]⟩
abbrev S768x768 : Shape := ⟨2, ![768, 768]⟩
abbrev S64x256 : Shape := ⟨2, ![64, 256]⟩
abbrev S64x128 : Shape := ⟨2, ![64, 128]⟩
abbrev S1x128x256 : Shape := ⟨3, ![1, 128, 256]⟩
abbrev S64x1x256 : Shape := ⟨3, ![64, 1, 256]⟩
abbrev S64x128x256 : Shape := ⟨3, ![64, 128, 256]⟩
abbrev S1x1x256 : Shape := ⟨3, ![1, 1, 256]⟩
abbrev S8192x256 : Shape := ⟨2, ![8192, 256]⟩
abbrev S8192x128 : Shape := ⟨2, ![8192, 128]⟩
abbrev S1x128 : Shape := ⟨2, ![1, 128]⟩
abbrev S128x2 : Shape := ⟨2, ![128, 2]⟩
abbrev S8192x2 : Shape := ⟨2, ![8192, 2]⟩
abbrev S64x128x2 : Shape := ⟨3, ![64, 128, 2]⟩
abbrev S2x64x128 : Shape := ⟨3, ![2, 64, 128]⟩
abbrev S1x64x128 : Shape := ⟨3, ![1, 64, 128]⟩
abbrev S768x768x1 : Shape := ⟨3, ![768, 768, 1]⟩
abbrev S768x768x2 : Shape := ⟨3, ![768, 768, 2]⟩
abbrev S1x1x2 : Shape := ⟨3, ![1, 1, 2]⟩

abbrev nBuf : Space → Nat
  | .hbm => 21
  | .vmem => 12
  | .smem => 0
  | _ => 0

abbrev bufTy : (tb : Table) → Fin (tcTables nBuf tb) → BufTy
  | .hbm, ⟨0, _⟩ => ⟨S768x128, .f32⟩
  | .hbm, ⟨1, _⟩ => ⟨S256x256, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S2x128, .f32⟩
  | .hbm, ⟨6, _⟩ => ⟨S2, .f32⟩
  | .hbm, ⟨7, _⟩ => ⟨S256x128, .f32⟩
  | .hbm, ⟨8, _⟩ => ⟨S128x256, .f32⟩
  | .hbm, ⟨9, _⟩ => ⟨S768x256, .f32⟩
  | .hbm, ⟨10, _⟩ => ⟨S256x128, .f32⟩
  | .hbm, ⟨11, _⟩ => ⟨S128x256, .f32⟩
  | .hbm, ⟨12, _⟩ => ⟨S768x256, .f32⟩
  | .hbm, ⟨13, _⟩ => ⟨S768x768, .f32⟩
  | .hbm, ⟨14, _⟩ => ⟨S768x768, .f32⟩
  | .hbm, ⟨15, _⟩ => ⟨S768x768x1, .f32⟩
  | .hbm, ⟨16, _⟩ => ⟨S768x768x1, .f32⟩
  | .hbm, ⟨17, _⟩ => ⟨S768x768x2, .f32⟩
  | .hbm, ⟨18, _⟩ => ⟨S1x1x2, .f32⟩
  | .hbm, ⟨19, _⟩ => ⟨S768x768x2, .f32⟩
  | .hbm, ⟨20, _⟩ => ⟨S768x768x2, .f32⟩
  | .local _ .vmem, ⟨0, _⟩ => ⟨S128x256, .f32⟩
  | .local _ .vmem, ⟨1, _⟩ => ⟨S128x256, .f32⟩
  | .local _ .vmem, ⟨2, _⟩ => ⟨S64x256, .f32⟩
  | .local _ .vmem, ⟨3, _⟩ => ⟨S64x256, .f32⟩
  | .local _ .vmem, ⟨4, _⟩ => ⟨S256, .f32⟩
  | .local _ .vmem, ⟨5, _⟩ => ⟨S128x256, .f32⟩
  | .local _ .vmem, ⟨6, _⟩ => ⟨S128, .f32⟩
  | .local _ .vmem, ⟨7, _⟩ => ⟨S2x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | _, _ => ⟨S768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![12, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S256x256_S256x128_0_0 : S256x256.Slices ![0, 0] S256x128
  transposes_S256x128_S128x256_1_0 : S256x128.Transposes [1, 0] S128x256
  slices_S256x256_S256x128_0_128 : S256x256.Slices ![0, 128] S256x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S128x256_S1x128x256 : S128x256.ShapeCasts S1x128x256
  shapeCasts_S64x256_S64x1x256 : S64x256.ShapeCasts S64x1x256
  broadcasts_S1x128x256_S64x128x256 : S1x128x256.Broadcasts S64x128x256
  broadcasts_S64x1x256_S64x128x256 : S64x1x256.Broadcasts S64x128x256
  shapeCasts_S256_S1x1x256 : S256.ShapeCasts S1x1x256
  broadcasts_S1x1x256_S64x128x256 : S1x1x256.Broadcasts S64x128x256
  shapeCasts_S64x128x256_S8192x256 : S64x128x256.ShapeCasts S8192x256
  bitsLt_bf16_f32 : FTy.bits .bf16 < FTy.bits .f32
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S2x128_S2x128_0_0 : ∀ a, (![0, 0] : Fin 2 → Nat) a + S2x128.size a ≤ S2x128.size a
  h_S2x128 : 0 < S2x128.numel
  transposes_S2x128_p1_0_S128x2 : S2x128.Transposes [1, 0] S128x2
  shapeCasts_S8192x2_S64x128x2 : S8192x2.ShapeCasts S64x128x2
  transposes_S64x128x2_p2_0_1_S2x64x128 : S64x128x2.Transposes [2, 0, 1] S2x64x128
  slices_S2x64x128_o0_0_0_S1x64x128 : S2x64x128.Slices ![0, 0, 0] S1x64x128
  shapeCasts_S1x64x128_S64x128 : S1x64x128.ShapeCasts S64x128
  inb_S64x128_S64x128_0_0 : ∀ a, (![0, 0] : Fin 2 → Nat) a + S64x128.size a ≤ S64x128.size a
  h_S64x128 : 0 < S64x128.numel
  slices_S2x64x128_o1_0_0_S1x64x128 : S2x64x128.Slices ![1, 0, 0] S1x64x128
  bcast_S768x768_S768x768x1_0_1 : S768x768.BroadcastsInDim S768x768x1 (![0, 1] : Fin 2 → Fin S768x768x1.rank)
  concatenates_S768x768x1_S768x768x1_S768x768x2_d2 : Shape.Concatenates [S768x768x1, S768x768x1] S768x768x2 2
  bcast_S2_S1x1x2_2 : S2.BroadcastsInDim S1x1x2 (![2] : Fin 1 → Fin S1x1x2.rank)
  bcast_S1x1x2_S768x768x2_0_1_2 : S1x1x2.BroadcastsInDim S768x768x2 (![0, 1, 2] : Fin 3 → Fin S768x768x2.rank)
  dot_S768x128_S128x256_S768x256_1_0_0_1_n_n_wf : DotDims.WF S768x128 S128x256 S768x256 [1] [0] [0] [1] [] []
  dot_S8192x256_S256x128_S8192x128_1_0_0_1_n_n_wf : DotDims.WF S8192x256 S256x128 S8192x128 [1] [0] [0] [1] [] []
  dot_S8192x128_S128x2_S8192x2_1_0_0_1_n_n_wf : DotDims.WF S8192x128 S128x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S768x256.size a
  hwx0_0 : ∀ i : grid0.Coords, EltTy.bits .f32 = 32 ∨ (Rect.block (s := S768x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S768x256.size a
  hwx0_1 : ∀ i : grid0.Coords, EltTy.bits .f32 = 32 ∨ (Rect.block (s := S768x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x128.size a ≤ S2x128.size a
  hwx0_5 : ∀ i : grid0.Coords, EltTy.bits .f32 = 32 ∨ (Rect.block (s := S2x128) S2x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S768x768.size a
  hwx0_6 : ∀ i : grid0.Coords, EltTy.bits .f32 = 32 ∨ (Rect.block (s := S768x768) S64x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S768x768.size a
  hwx0_7 : ∀ i : grid0.Coords, EltTy.bits .f32 = 32 ∨ (Rect.block (s := S768x768) S64x128.size (cc0_transform_7 i) (hinb0_7 i)).WholeWords (EltTy.packing .f32)

variable [Facts₀]

def dot_S768x128_S128x256_S768x256_1_0_0_1_n_n : DotDims S768x128 S128x256 S768x256 where
  lhsContracting := [1]
  rhsContracting := [0]
  lhsNonContracting := [0]
  rhsNonContracting := [1]
  lhsBatch := []
  rhsBatch := []
  wf := dot_S768x128_S128x256_S768x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x2_S8192x2_1_0_0_1_n_n : DotDims S8192x128 S128x2 S8192x2 where
  lhsContracting := [1]
  rhsContracting := [0]
  lhsNonContracting := [0]
  rhsNonContracting := [1]
  lhsBatch := []
  rhsBatch := []
  wf := dot_S8192x128_S128x2_S8192x2_1_0_0_1_n_n_wf

abbrev win0_0 : Pipeline.Window sig grid0 :=
  Pipeline.Window.ofSpec (Memref.whole main_v2) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S64x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S768x128 : Shape := ⟨2, ![768, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S256x128 : Shape := ⟨2, ![256, 128]⟩
abbrev S768x256 : Shape := ⟨2, ![768, 256]⟩
abbrev S1x768x256 : Shape := ⟨3, ![1, 768, 256]⟩
abbrev S768x1x256 : Shape := ⟨3, ![768, 1, 256]⟩
abbrev S768x768x256 : Shape := ⟨3, ![768, 768, 256]⟩
abbrev S1x1x256 : Shape := ⟨3, ![1, 1, 256]⟩
abbrev S_ : Shape := ⟨0, ![]⟩
abbrev S768x768x128 : Shape := ⟨3, ![768, 768, 128]⟩
abbrev S1x1x128 : Shape := ⟨3, ![1, 1, 128]⟩
abbrev S768x768x2 : Shape := ⟨3, ![768, 768, 2]⟩
abbrev S1x1x2 : Shape := ⟨3, ![1, 1, 2]⟩

abbrev nBuf : Space → Nat
  | .hbm => 33
  | .vmem => 0
  | .smem => 0
  | _ => 0

abbrev bufTy : (tb : Table) → Fin (tcTables nBuf tb) → BufTy
  | .hbm, ⟨0, _⟩ => ⟨S768x128, .f32⟩
  | .hbm, ⟨1, _⟩ => ⟨S256x256, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S2x128, .f32⟩
  | .hbm, ⟨6, _⟩ => ⟨S2, .f32⟩
  | .hbm, ⟨7, _⟩ => ⟨S256x128, .f32⟩
  | .hbm, ⟨8, _⟩ => ⟨S768x256, .f32⟩
  | .hbm, ⟨9, _⟩ => ⟨S256x128, .f32⟩
  | .hbm, ⟨10, _⟩ => ⟨S768x256, .f32⟩
  | .hbm, ⟨11, _⟩ => ⟨S1x768x256, .f32⟩
  | .hbm, ⟨12, _⟩ => ⟨S768x1x256, .f32⟩
  | .hbm, ⟨13, _⟩ => ⟨S768x768x256, .f32⟩
  | .hbm, ⟨14, _⟩ => ⟨S768x768x256, .f32⟩
  | .hbm, ⟨15, _⟩ => ⟨S768x768x256, .f32⟩
  | .hbm, ⟨16, _⟩ => ⟨S1x1x256, .f32⟩
  | .hbm, ⟨17, _⟩ => ⟨S768x768x256, .f32⟩
  | .hbm, ⟨18, _⟩ => ⟨S768x768x256, .f32⟩
  | .hbm, ⟨19, _⟩ => ⟨S_, .f32⟩
  | .hbm, ⟨20, _⟩ => ⟨S768x768x256, .f32⟩
  | .hbm, ⟨21, _⟩ => ⟨S768x768x256, .f32⟩
  | .hbm, ⟨22, _⟩ => ⟨S768x768x128, .f32⟩
  | .hbm, ⟨23, _⟩ => ⟨S1x1x128, .f32⟩
  | .hbm, ⟨24, _⟩ => ⟨S768x768x128, .f32⟩
  | .hbm, ⟨25, _⟩ => ⟨S768x768x128, .f32⟩
  | .hbm, ⟨26, _⟩ => ⟨S_, .f32⟩
  | .hbm, ⟨27, _⟩ => ⟨S768x768x128, .f32⟩
  | .hbm, ⟨28, _⟩ => ⟨S768x768x128, .f32⟩
  | .hbm, ⟨29, _⟩ => ⟨S768x768x2, .f32⟩
  | .hbm, ⟨30, _⟩ => ⟨S1x1x2, .f32⟩
  | .hbm, ⟨31, _⟩ => ⟨S768x768x2, .f32⟩
  | .hbm, ⟨32, _⟩ => ⟨S768x768x2, .f32⟩
  | _, _ => ⟨S768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_cst : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  slices_S256x256_S256x128_0_0 : S256x256.Slices ![0, 0] S256x128
  slices_S256x256_S256x128_0_128 : S256x256.Slices ![0, 128] S256x128
  bcast_S768x256_S1x768x256_1_2 : S768x256.BroadcastsInDim S1x768x256 (![1, 2] : Fin 2 → Fin S1x768x256.rank)
  bcast_S768x256_S768x1x256_0_2 : S768x256.BroadcastsInDim S768x1x256 (![0, 2] : Fin 2 → Fin S768x1x256.rank)
  bcast_S1x768x256_S768x768x256_0_1_2 : S1x768x256.BroadcastsInDim S768x768x256 (![0, 1, 2] : Fin 3 → Fin S768x768x256.rank)
  bcast_S768x1x256_S768x768x256_0_1_2 : S768x1x256.BroadcastsInDim S768x768x256 (![0, 1, 2] : Fin 3 → Fin S768x768x256.rank)
  bcast_S256_S1x1x256_2 : S256.BroadcastsInDim S1x1x256 (![2] : Fin 1 → Fin S1x1x256.rank)
  bcast_S1x1x256_S768x768x256_0_1_2 : S1x1x256.BroadcastsInDim S768x768x256 (![0, 1, 2] : Fin 3 → Fin S768x768x256.rank)
  bcast_S_S768x768x256 : S_.BroadcastsInDim S768x768x256 (![] : Fin 0 → Fin S768x768x256.rank)
  bcast_S128_S1x1x128_2 : S128.BroadcastsInDim S1x1x128 (![2] : Fin 1 → Fin S1x1x128.rank)
  bcast_S1x1x128_S768x768x128_0_1_2 : S1x1x128.BroadcastsInDim S768x768x128 (![0, 1, 2] : Fin 3 → Fin S768x768x128.rank)
  bcast_S_S768x768x128 : S_.BroadcastsInDim S768x768x128 (![] : Fin 0 → Fin S768x768x128.rank)
  bcast_S2_S1x1x2_2 : S2.BroadcastsInDim S1x1x2 (![2] : Fin 1 → Fin S1x1x2.rank)
  bcast_S1x1x2_S768x768x2_0_1_2 : S1x1x2.BroadcastsInDim S768x768x2 (![0, 1, 2] : Fin 3 → Fin S768x768x2.rank)
  dot_S768x128_S256x128_S768x256_1_1_0_0_n_n_wf : DotDims.WF S768x128 S256x128 S768x256 [1] [1] [0] [0] [] []
  dot_S768x768x256_S128x256_S768x768x128_2_1_01_0_n_n_wf : DotDims.WF S768x768x256 S128x256 S768x768x128 [2] [1] [0, 1] [0] [] []
  dot_S768x768x128_S2x128_S768x768x2_2_1_01_0_n_n_wf : DotDims.WF S768x768x128 S2x128 S768x768x2 [2] [1] [0, 1] [0] [] []

variable [Facts₀]

def dot_S768x128_S256x128_S768x256_1_1_0_0_n_n : DotDims S768x128 S256x128 S768x256 where
  lhsContracting := [1]
  rhsContracting := [1]
  lhsNonContracting := [0]
  rhsNonContracting := [0]
  lhsBatch := []
  rhsBatch := []
  wf := dot_S768x128_S256x128_S768x256_1_1_0_0_n_n_wf
def dot_S768x768x256_S128x256_S768x768x128_2_1_01_0_n_n : DotDims S768x768x256 S128x256 S768x768x128 where
  lhsContracting := [2]
  rhsContracting := [1]
  lhsNonContracting := [0, 1]
  rhsNonContracting := [0]
  lhsBatch := []
  rhsBatch := []
  wf := dot_S768x768x256_S128x256_S768x768x128_2_1_01_0_n_n_wf
def dot_S768x768x128_S2x128_S768x768x2_2_1_01_0_n_n : DotDims S768x768x128 S2x128 S768x768x2 where
  lhsContracting := [2]
  rhsContracting := [1]
  lhsNonContracting := [0, 1]
  rhsNonContracting := [0]
  lhsBatch := []
  rhsBatch := []
  wf := dot_S768x768x128_S2x128_S768x768x2_2_1_01_0_n_n_wf

class Facts : Prop extends Facts₀ where

variable [Facts]
-- ==== Proof.PairMlp.lean ====
/-
  The pairwise two-layer perceptron, over the extended reals.

  N = 768 cells carry embeddings z[i] ∈ ℝ^128. A pair (i, j) is scored from the concatenation (z[j], z[i]) ∈ ℝ^256 by
      h₁ = relu (W1 · (z[j], z[i]) + b1) ∈ ℝ^256,   h₂ = relu (W2 · h₁ + b2) ∈ ℝ^128,   out = Wf · h₂ + bf ∈ ℝ^2.
  W1 acts on the concatenation, so W1 · (z[j], z[i]) splits into the part of z[j] through W1's first 128 columns
  (`rowPart`, one row of 256 numbers per cell j) and the part of z[i] through its last 128 columns (`colPart`, one row
  per cell i). Everything after that depends on the pair only through those two rows: `pairOut r c …` is the score of a
  pair whose two rows are `r` and `c`, before the last bias. Both programs compute it in exactly this association:
  (r + c) + b1, then max with 0, the sum over the 256 channels against a row of W2, + b2, max with 0, the sum over the
  128 channels against a row of Wf; `dists` adds bf. No law beyond the order of a finite sum is ever needed, so
  nothing here asks the inputs to be finite.
-/
import Idealize.ShloMosaic.PureOps.Ideal.Laws
import Idealize.ShloMosaic.Lib.ValueIdx

noncomputable section

namespace Cert.PairMlp

open Idealize.ShloMosaic Idealize.ShloMosaic.ValueIdx

/-- Column `d` of W1's first half. -/
abbrev lo (d : Fin 128) : Fin 256 := ⟨d.val, by omega⟩
/-- Column `d` of W1's second half. -/
abbrev hi (d : Fin 128) : Fin 256 := ⟨128 + d.val, by omega⟩

/-- Cell `j`'s row of the first layer: z[j] against the first 128 columns of each row of W1. -/
def rowPart (z : (⟨2, ![768, 128]⟩ : Shape).Idx → EReal) (W1 : (⟨2, ![256, 256]⟩ : Shape).Idx → EReal)
    (j : Fin 768) (ch : Fin 256) : EReal :=
  ∑ d : Fin 128, z (ix2 j d) * W1 (ix2 ch (lo d))

/-- Cell `i`'s row of the first layer: z[i] against the last 128 columns of each row of W1. -/
def colPart (z : (⟨2, ![768, 128]⟩ : Shape).Idx → EReal) (W1 : (⟨2, ![256, 256]⟩ : Shape).Idx → EReal)
    (i : Fin 768) (ch : Fin 256) : EReal :=
  ∑ d : Fin 128, z (ix2 i d) * W1 (ix2 ch (hi d))

/-- The first hidden layer of a pair with rows `r` and `c`: relu ((r + c) + b1), channel by channel. -/
def hidden1 (r c : Fin 256 → EReal) (b1 : (⟨1, ![256]⟩ : Shape).Idx → EReal) (ch : Fin 256) : EReal :=
  max (r ch + c ch + b1 (ix1 ch)) 0

/-- The second hidden layer: relu (W2 · h₁ + b2). -/
def hidden2 (r c : Fin 256 → EReal) (b1 : (⟨1, ![256]⟩ : Shape).Idx → EReal)
    (W2 : (⟨2, ![128, 256]⟩ : Shape).Idx → EReal) (b2 : (⟨1, ![128]⟩ : Shape).Idx → EReal) (o : Fin 128) : EReal :=
  max ((∑ ch : Fin 256, hidden1 r c b1 ch * W2 (ix2 o ch)) + b2 (ix1 o)) 0

/-- The pair's score before the last bias: Wf · h₂. -/
def pairOut (r c : Fin 256 → EReal) (b1 : (⟨1, ![256]⟩ : Shape).Idx → EReal)
    (W2 : (⟨2, ![128, 256]⟩ : Shape).Idx → EReal) (b2 : (⟨1, ![128]⟩ : Shape).Idx → EReal)
    (Wf : (⟨2, ![2, 128]⟩ : Shape).Idx → EReal) (k : Fin 2) : EReal :=
  ∑ o : Fin 128, hidden2 r c b1 W2 b2 o * Wf (ix2 k o)

/-- Score `k` of every pair before the last bias, as an N × N array, from the two arrays of rows: entry (i, j) is the
    pair whose row part is row `j` of `R` and whose column part is row `i` of `C`. -/
def scores (R C : (⟨2, ![768, 256]⟩ : Shape).Idx → EReal) (b1 : (⟨1, ![256]⟩ : Shape).Idx → EReal)
    (W2 : (⟨2, ![128, 256]⟩ : Shape).Idx → EReal) (b2 : (⟨1, ![128]⟩ : Shape).Idx → EReal)
    (Wf : (⟨2, ![2, 128]⟩ : Shape).Idx → EReal) (k : Fin 2) : (⟨2, ![768, 768]⟩ : Shape).Idx → EReal :=
  fun i => pairOut (fun ch => R (ix2 (i 1) ch)) (fun ch => C (ix2 (i 0) ch)) b1 W2 b2 Wf k

theorem scores_apply (R C : (⟨2, ![768, 256]⟩ : Shape).Idx → EReal) (b1 : (⟨1, ![256]⟩ : Shape).Idx → EReal)
    (W2 : (⟨2, ![128, 256]⟩ : Shape).Idx → EReal) (b2 : (⟨1, ![128]⟩ : Shape).Idx → EReal)
    (Wf : (⟨2, ![2, 128]⟩ : Shape).Idx → EReal) (k : Fin 2) (i j : Fin 768) :
    scores R C b1 W2 b2 Wf k (ix2 i j) = pairOut (fun ch => R (ix2 j ch)) (fun ch => C (ix2 i ch)) b1 W2 b2 Wf k := rfl

/-- THE RESULT: both scores of every pair, [768, 768, 2], from the seven arguments. -/
def dists (z : (⟨2, ![768, 128]⟩ : Shape).Idx → EReal) (W1 : (⟨2, ![256, 256]⟩ : Shape).Idx → EReal)
    (b1 : (⟨1, ![256]⟩ : Shape).Idx → EReal) (W2 : (⟨2, ![128, 256]⟩ : Shape).Idx → EReal)
    (b2 : (⟨1, ![128]⟩ : Shape).Idx → EReal) (Wf : (⟨2, ![2, 128]⟩ : Shape).Idx → EReal)
    (bf : (⟨1, ![2]⟩ : Shape).Idx → EReal) : (⟨3, ![768, 768, 2]⟩ : Shape).Idx → EReal :=
  fun i => pairOut (rowPart z W1 (i 1)) (colPart z W1 (i 0)) b1 W2 b2 Wf (i 2) + bf (ix1 (i 2))

theorem dists_apply (z : (⟨2, ![768, 128]⟩ : Shape).Idx → EReal) (W1 : (⟨2, ![256, 256]⟩ : Shape).Idx → EReal)
    (b1 : (⟨1, ![256]⟩ : Shape).Idx → EReal) (W2 : (⟨2, ![128, 256]⟩ : Shape).Idx → EReal)
    (b2 : (⟨1, ![128]⟩ : Shape).Idx → EReal) (Wf : (⟨2, ![2, 128]⟩ : Shape).Idx → EReal)
    (bf : (⟨1, ![2]⟩ : Shape).Idx → EReal) (i j : Fin 768) (k : Fin 2) :
    dists z W1 b1 W2 b2 Wf bf (ix3 i j k)
      = pairOut (rowPart z W1 j) (colPart z W1 i) b1 W2 b2 Wf k + bf (ix1 k) := rfl

end Cert.PairMlp

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.BlockValue.lean ====
/-
  What one grid point's body stores, read at an index, over the extended reals.

  The body holds a [128, 256] block of row parts (one row per cell j of the point's 128 columns), a [64, 256] block of
  column parts (one row per cell i of the point's 64 rows), and b1, W2, b2, Wf whole. Its one computed value, a
  [2, 64, 128] vector, is at (k, a, b) the score `k` of the pair made of row `b` of the first block and row `a` of the
  second (`PairMlp.pairOut`); the two stored [64, 128] payloads are its planes k = 0 and k = 1.
-/
import proofs.«152906_j30296699306320_1_alg».proof.Proof.Gen.KernelIdeal.Skeleton
import proofs.«152906_j30296699306320_1_alg».proof.Proof.PairMlp
import proofs.«152906_j30296699306320_1_alg».proof.Proof.LibMatmul
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Block

open Idealize.ShloMosaic Idealize.ShloMosaic.ValueIdx Cert.KernelIdeal Cert.KernelIdeal.Gen

/-! ## The first hidden layer, [64, 128, 256] -/

/-- The block of row parts spread over the 64 rows: at (a, b, ch) it is row `b` of the block at channel `ch`. -/
theorem rowSpread_apply (x0 : FVec Ideal S128x256 .f32) (a : Fin 64) (b : Fin 128) (ch : Fin 256) :
    broadcastTo S64x128x256
        (shapeCast S1x128x256 (shapeCast S128x256 x0 shapeCasts_S128x256_S128x256) shapeCasts_S128x256_S1x128x256)
        broadcasts_S1x128x256_S64x128x256 (ix3 a b ch)
      = x0 (ix2 b ch) := by
  rw [shapeCast_self]
  refine (broadcastTo_apply _ broadcasts_S1x128x256_S64x128x256 (ix3 a b ch) (ix3 0 b ch) ?_).trans ?_
  · intro d
    match d with
    | ⟨0, _⟩ => rfl
    | ⟨1, _⟩ => rfl
    | ⟨2, _⟩ => rfl
  · refine shapeCast_apply x0 shapeCasts_S128x256_S1x128x256 (ix3 0 b ch) (ix2 b ch) ?_
    rw [Shape.rowMajor_val_two, Shape.rowMajor_val_three]
    show b.val * 256 + ch.val = (0 * 128 + b.val) * 256 + ch.val
    omega

/-- The block of column parts spread over the 128 columns: at (a, b, ch) it is row `a` of the block at channel `ch`. -/
theorem colSpread_apply (x1 : FVec Ideal S64x256 .f32) (a : Fin 64) (b : Fin 128) (ch : Fin 256) :
    broadcastTo S64x128x256
        (shapeCast S64x1x256 (shapeCast S64x256 x1 shapeCasts_S64x256_S64x256) shapeCasts_S64x256_S64x1x256)
        broadcasts_S64x1x256_S64x128x256 (ix3 a b ch)
      = x1 (ix2 a ch) := by
  rw [shapeCast_self]
  refine (broadcastTo_apply _ broadcasts_S64x1x256_S64x128x256 (ix3 a b ch) (ix3 a 0 ch) ?_).trans ?_
  · intro d
    match d with
    | ⟨0, _⟩ => rfl
    | ⟨1, _⟩ => rfl
    | ⟨2, _⟩ => rfl
  · refine shapeCast_apply x1 shapeCasts_S64x256_S64x1x256 (ix3 a 0 ch) (ix2 a ch) ?_
    rw [Shape.rowMajor_val_two, Shape.rowMajor_val_three]
    show a.val * 256 + ch.val = (a.val * 1 + 0) * 256 + ch.val
    omega

/-- The first bias spread over all pairs: at (a, b, ch) it is b1 at channel `ch`. -/
theorem biasSpread_apply (x2 : FVec Ideal S256 .f32) (a : Fin 64) (b : Fin 128) (ch : Fin 256) :
    broadcastTo S64x128x256 (shapeCast S1x1x256 x2 shapeCasts_S256_S1x1x256) broadcasts_S1x1x256_S64x128x256 (ix3 a b ch)
      = x2 (ix1 ch) := by
  refine (broadcastTo_apply _ broadcasts_S1x1x256_S64x128x256 (ix3 a b ch) (ix3 0 0 ch) ?_).trans ?_
  · intro d
    match d with
    | ⟨0, _⟩ => rfl
    | ⟨1, _⟩ => rfl
    | ⟨2, _⟩ => rfl
  · refine shapeCast_apply x2 shapeCasts_S256_S1x1x256 (ix3 0 0 ch) (ix1 ch) ?_
    rw [Shape.rowMajor_val_one, Shape.rowMajor_val_three]
    show ch.val = (0 * 1 + 0) * 256 + ch.val
    omega

/-- The body's first hidden layer: relu ((rows + columns) + b1) over the [64, 128, 256] pairs-by-channels array. -/
def layer1 (x0 : Vec Ideal S128x256 .f32) (x1 : Vec Ideal S64x256 .f32) (x2 : Vec Ideal S256 .f32) :
    FVec Ideal S64x128x256 .f32 :=
  maximumf
    (addf
      (addf
        (broadcastTo S64x128x256
          (shapeCast S1x128x256 (shapeCast S128x256 x0 shapeCasts_S128x256_S128x256) shapeCasts_S128x256_S1x128x256)
          broadcasts_S1x128x256_S64x128x256)
        (broadcastTo S64x128x256
          (shapeCast S64x1x256 (shapeCast S64x256 x1 shapeCasts_S64x256_S64x256) shapeCasts_S64x256_S64x1x256)
          broadcasts_S64x1x256_S64x128x256))
      (broadcastTo S64x128x256 (shapeCast S1x1x256 x2 shapeCasts_S256_S1x1x256) broadcasts_S1x1x256_S64x128x256))
    (broadcast S64x128x256 (Scalar.ofBits (F := Ideal) .f32 0x00000000#32))

/-- At (a, b, ch) the first hidden layer is `hidden1` of row `b` of the row parts and row `a` of the column parts. -/
theorem layer1_apply (x0 : Vec Ideal S128x256 .f32) (x1 : Vec Ideal S64x256 .f32) (x2 : Vec Ideal S256 .f32)
    (a : Fin 64) (b : Fin 128) (ch : Fin 256) :
    layer1 x0 x1 x2 (ix3 a b ch) = PairMlp.hidden1 (fun ch => x0 (ix2 b ch)) (fun ch => x1 (ix2 a ch)) x2 ch := by
  unfold layer1 PairMlp.hidden1
  rw [maximumf_apply, addf_apply, addf_apply, rowSpread_apply, colSpread_apply, biasSpread_apply, broadcast_apply]
  exact congrArg (max _) Ideal.ofBits_zero_f32

/-! ## The second hidden layer, [8192, 128]: pair (a, b) is row a·128 + b -/

/-- The row of the flattened [8192, ·] arrays that holds pair (a, b). -/
abbrev pairRow (a : Fin 64) (b : Fin 128) : Fin 8192 := ⟨a.val * 128 + b.val, by have := a.isLt; have := b.isLt; omega⟩

/-- The first hidden layer flattened to [8192, 256] reads pair (a, b) at row a·128 + b. -/
theorem flat1_apply (h : FVec Ideal S64x128x256 .f32) (a : Fin 64) (b : Fin 128) (ch : Fin 256) :
    shapeCast S8192x256 h shapeCasts_S64x128x256_S8192x256 (ix2 (pairRow a b) ch) = h (ix3 a b ch) := by
  refine shapeCast_apply h shapeCasts_S64x128x256_S8192x256 (ix2 (pairRow a b) ch) (ix3 a b ch) ?_
  rw [Shape.rowMajor_val_two, Shape.rowMajor_val_three]
  show (a.val * 128 + b.val) * 256 + ch.val = (a.val * 128 + b.val) * 256 + ch.val
  rfl

/-- W2 transposed to [256, 128] reads W2 at the swapped index. -/
theorem w2T_apply (x3 : FVec Ideal S128x256 .bf16) (ch : Fin 256) (o : Fin 128) :
    transpose S256x128 [1, 0] x3 transposes_S128x256_p1_0_S256x128 (ix2 ch o) = x3 (ix2 o ch) := by
  refine transpose_apply [1, 0] x3 transposes_S128x256_p1_0_S256x128 (ix2 ch o) (ix2 o ch) ?_
  intro d
  match d with
  | ⟨0, _⟩ => rfl
  | ⟨1, _⟩ => rfl

/-- The second bias spread over all pairs: at (p, o) it is b2 at channel `o`. -/
theorem bias2Spread_apply (x4 : FVec Ideal S128 .f32) (p : Fin 8192) (o : Fin 128) :
    broadcastTo S8192x128 (shapeCast S1x128 x4 shapeCasts_S128_S1x128) broadcasts_S1x128_S8192x128 (ix2 p o)
      = x4 (ix1 o) := by
  refine (broadcastTo_apply _ broadcasts_S1x128_S8192x128 (ix2 p o) (ix2 0 o) ?_).trans ?_
  · intro d
    match d with
    | ⟨0, _⟩ => rfl
    | ⟨1, _⟩ => rfl
  · refine shapeCast_apply x4 shapeCasts_S128_S1x128 (ix2 0 o) (ix1 o) ?_
    rw [Shape.rowMajor_val_one, Shape.rowMajor_val_two]
    show o.val = 0 * 128 + o.val
    omega

/-- The printed dimension numbers of the [8192, 256] by [256, 128] product are the plain ones. -/
theorem dot1_eq_plain : dot_S8192x256_S256x128_S8192x128_1_0_0_1_n_n = DotDims.plain 8192 256 128 := rfl

/-- The printed dimension numbers of the [8192, 128] by [128, 2] product are the plain ones. -/
theorem dot2_eq_plain : dot_S8192x128_S128x2_S8192x2_1_0_0_1_n_n = DotDims.plain 8192 128 2 := rfl

/-- The body's second hidden layer from its first: relu (h₁ · W2ᵀ + b2) over the [8192, 128] pairs-by-channels array. -/
def layer2 (h : FVec Ideal S64x128x256 .f32) (x3 : Vec Ideal S128x256 .f32) (x4 : Vec Ideal S128 .f32) :
    FVec Ideal S8192x128 .f32 :=
  maximumf
    (addf
      (matmul dot_S8192x256_S256x128_S8192x128_1_0_0_1_n_n none
        (truncf .bf16 (shapeCast S8192x256 h shapeCasts_S64x128x256_S8192x256) bitsLt_bf16_f32)
        (transpose S256x128 [1, 0] (truncf .bf16 x3 bitsLt_bf16_f32) transposes_S128x256_p1_0_S256x128)
        (constant S8192x128 .f32 0x00000000#32))
      (broadcastTo S8192x128 (shapeCast S1x128 x4 shapeCasts_S128_S1x128) broadcasts_S1x128_S8192x128))
    (broadcast S8192x128 (Scalar.ofBits (F := Ideal) .f32 0x00000000#32))

/-- At row a·128 + b and channel `o` the second layer is relu of the first layer's row (a, b) against row `o` of W2,
    plus b2. -/
theorem layer2_apply (h : FVec Ideal S64x128x256 .f32) (x3 : Vec Ideal S128x256 .f32) (x4 : Vec Ideal S128 .f32)
    (a : Fin 64) (b : Fin 128) (o : Fin 128) :
    layer2 h x3 x4 (ix2 (pairRow a b) o)
      = max ((∑ ch : Fin 256, h (ix3 a b ch) * x3 (ix2 o ch)) + x4 (ix1 o)) 0 := by
  unfold layer2
  rw [maximumf_apply, addf_apply, bias2Spread_apply, broadcast_apply, dot1_eq_plain]
  refine congrArg₂ max (congrArg (· + x4 (ix1 o)) ?_) Ideal.ofBits_zero_f32
  refine (Cert.Matmul.matmul_plain_apply none _ _ (pairRow a b) o).trans ?_
  refine Finset.sum_congr rfl fun ch _ => ?_
  rw [truncf_apply, flat1_apply, w2T_apply, truncf_apply]

/-! ## The scores, [2, 64, 128] -/

/-- Wf transposed to [128, 2] reads Wf at the swapped index. -/
theorem wfT_apply (x5 : FVec Ideal S2x128 .bf16) (o : Fin 128) (k : Fin 2) :
    transpose S128x2 [1, 0] x5 transposes_S2x128_p1_0_S128x2 (ix2 o k) = x5 (ix2 k o) := by
  refine transpose_apply [1, 0] x5 transposes_S2x128_p1_0_S128x2 (ix2 o k) (ix2 k o) ?_
  intro d
  match d with
  | ⟨0, _⟩ => rfl
  | ⟨1, _⟩ => rfl

/-- The [8192, 2] scores reshaped to [64, 128, 2] read pair (a, b) at row a·128 + b. -/
theorem unflat_apply (s : FVec Ideal S8192x2 .f32) (a : Fin 64) (b : Fin 128) (k : Fin 2) :
    shapeCast S64x128x2 s shapeCasts_S8192x2_S64x128x2 (ix3 a b k) = s (ix2 (pairRow a b) k) := by
  refine shapeCast_apply s shapeCasts_S8192x2_S64x128x2 (ix3 a b k) (ix2 (pairRow a b) k) ?_
  rw [Shape.rowMajor_val_two, Shape.rowMajor_val_three]
  show (a.val * 128 + b.val) * 2 + k.val = (a.val * 128 + b.val) * 2 + k.val
  rfl

/-- The score axis moved to the front: (k, a, b) reads (a, b, k). -/
theorem scoreFirst_apply (s : FVec Ideal S64x128x2 .f32) (k : Fin 2) (a : Fin 64) (b : Fin 128) :
    transpose S2x64x128 [2, 0, 1] s transposes_S64x128x2_p2_0_1_S2x64x128 (ix3 k a b) = s (ix3 a b k) := by
  refine transpose_apply [2, 0, 1] s transposes_S64x128x2_p2_0_1_S2x64x128 (ix3 k a b) (ix3 a b k) ?_
  intro d
  match d with
  | ⟨0, _⟩ => rfl
  | ⟨1, _⟩ => rfl
  | ⟨2, _⟩ => rfl

/-- The body's scores from its second hidden layer: h₂ · Wfᵀ, reshaped to pairs and with the score axis first. -/
def scoresOf (g : FVec Ideal S8192x128 .f32) (x5 : Vec Ideal S2x128 .f32) : FVec Ideal S2x64x128 .f32 :=
  transpose S2x64x128 [2, 0, 1]
    (shapeCast S64x128x2
      (matmul dot_S8192x128_S128x2_S8192x2_1_0_0_1_n_n none
        (truncf .bf16 g bitsLt_bf16_f32)
        (transpose S128x2 [1, 0] (truncf .bf16 x5 bitsLt_bf16_f32) transposes_S2x128_p1_0_S128x2)
        (constant S8192x2 .f32 0x00000000#32))
      shapeCasts_S8192x2_S64x128x2)
    transposes_S64x128x2_p2_0_1_S2x64x128

/-- At (k, a, b) the scores are the second layer's row a·128 + b against row `k` of Wf. -/
theorem scoresOf_apply (g : FVec Ideal S8192x128 .f32) (x5 : Vec Ideal S2x128 .f32) (k : Fin 2) (a : Fin 64) (b : Fin 128) :
    scoresOf g x5 (ix3 k a b) = ∑ o : Fin 128, g (ix2 (pairRow a b) o) * x5 (ix2 k o) := by
  unfold scoresOf
  rw [scoreFirst_apply, unflat_apply, dot2_eq_plain]
  refine (Cert.Matmul.matmul_plain_apply none _ _ (pairRow a b) k).trans ?_
  refine Finset.sum_congr rfl fun o _ => ?_
  rw [truncf_apply, wfT_apply, truncf_apply]

/-! ## The body's value and the two stored planes -/

/-- The printed [2, 64, 128] value is the three stages composed. -/
theorem pay1_eq (x0 : Vec Ideal S128x256 .f32) (x1 : Vec Ideal S64x256 .f32) (x2 : Vec Ideal S256 .f32)
    (x3 : Vec Ideal S128x256 .f32) (x4 : Vec Ideal S128 .f32) (x5 : Vec Ideal S2x128 .f32) :
    k0_pay1 (F := Ideal) x0 x1 x2 x3 x4 x5 = scoresOf (layer2 (layer1 x0 x1 x2) x3 x4) x5 := rfl

/-- The body's [2, 64, 128] value at (k, a, b): score `k` of the pair (row `b` of the row-part block, row `a` of the
    column-part block). -/
theorem pay1_apply (x0 : Vec Ideal S128x256 .f32) (x1 : Vec Ideal S64x256 .f32) (x2 : Vec Ideal S256 .f32)
    (x3 : Vec Ideal S128x256 .f32) (x4 : Vec Ideal S128 .f32) (x5 : Vec Ideal S2x128 .f32)
    (k : Fin 2) (a : Fin 64) (b : Fin 128) :
    k0_pay1 (F := Ideal) x0 x1 x2 x3 x4 x5 (ix3 k a b)
      = PairMlp.pairOut (fun ch => x0 (ix2 b ch)) (fun ch => x1 (ix2 a ch)) x2 x3 x4 x5 k := by
  rw [pay1_eq, scoresOf_apply]
  unfold PairMlp.pairOut PairMlp.hidden2
  refine Finset.sum_congr rfl fun o _ => ?_
  rw [layer2_apply]
  refine congrArg (fun t => max (t + x4 (ix1 o)) 0 * x5 (ix2 k o)) ?_
  refine Finset.sum_congr rfl fun ch _ => ?_
  rw [layer1_apply]

/-- Plane 0 of a [2, 64, 128] value, cut out as [1, 64, 128] and viewed [64, 128], reads (0, a, b) at (a, b). -/
theorem plane0_apply (v : FVec Ideal S2x64x128 .f32) (a : Fin 64) (b : Fin 128) :
    shapeCast S64x128 (extractStridedSlice S1x64x128 ![0, 0, 0] v slices_S2x64x128_o0_0_0_S1x64x128)
        shapeCasts_S1x64x128_S64x128 (ix2 a b) = v (ix3 0 a b) := by
  refine (shapeCast_apply _ shapeCasts_S1x64x128_S64x128 (ix2 a b) (ix3 0 a b) ?_).trans ?_
  · rw [Shape.rowMajor_val_two, Shape.rowMajor_val_three]
    show (0 * 64 + a.val) * 128 + b.val = a.val * 128 + b.val
    omega
  · refine extractStridedSlice_apply ![0, 0, 0] v slices_S2x64x128_o0_0_0_S1x64x128 (ix3 0 a b) (ix3 0 a b) ?_
    intro d
    match d with
    | ⟨0, _⟩ => rfl
    | ⟨1, _⟩ => exact (Nat.zero_add a.val).symm
    | ⟨2, _⟩ => exact (Nat.zero_add b.val).symm

/-- Plane 1 likewise reads (1, a, b) at (a, b). -/
theorem plane1_apply (v : FVec Ideal S2x64x128 .f32) (a : Fin 64) (b : Fin 128) :
    shapeCast S64x128 (extractStridedSlice S1x64x128 ![1, 0, 0] v slices_S2x64x128_o1_0_0_S1x64x128)
        shapeCasts_S1x64x128_S64x128 (ix2 a b) = v (ix3 1 a b) := by
  refine (shapeCast_apply _ shapeCasts_S1x64x128_S64x128 (ix2 a b) (ix3 0 a b) ?_).trans ?_
  · rw [Shape.rowMajor_val_two, Shape.rowMajor_val_three]
    show (0 * 64 + a.val) * 128 + b.val = a.val * 128 + b.val
    omega
  · refine extractStridedSlice_apply ![1, 0, 0] v slices_S2x64x128_o1_0_0_S1x64x128 (ix3 0 a b) (ix3 1 a b) ?_
    intro d
    match d with
    | ⟨0, _⟩ => rfl
    | ⟨1, _⟩ => exact (Nat.zero_add a.val).symm
    | ⟨2, _⟩ => exact (Nat.zero_add b.val).symm

/-- The first stored payload is the plane k = 0. -/
theorem pay2_apply (x0 : Vec Ideal S128x256 .f32) (x1 : Vec Ideal S64x256 .f32) (x2 : Vec Ideal S256 .f32)
    (x3 : Vec Ideal S128x256 .f32) (x4 : Vec Ideal S128 .f32) (x5 : Vec Ideal S2x128 .f32) (a : Fin 64) (b : Fin 128) :
    k0_pay2 (F := Ideal) x0 x1 x2 x3 x4 x5 (ix2 a b)
      = PairMlp.pairOut (fun ch => x0 (ix2 b ch)) (fun ch => x1 (ix2 a ch)) x2 x3 x4 x5 0 := by
  unfold k0_pay2
  exact (plane0_apply _ a b).trans (pay1_apply x0 x1 x2 x3 x4 x5 0 a b)

/-- The second stored payload is the plane k = 1. -/
theorem pay3_apply (x0 : Vec Ideal S128x256 .f32) (x1 : Vec Ideal S64x256 .f32) (x2 : Vec Ideal S256 .f32)
    (x3 : Vec Ideal S128x256 .f32) (x4 : Vec Ideal S128 .f32) (x5 : Vec Ideal S2x128 .f32) (a : Fin 64) (b : Fin 128) :
    k0_pay3 (F := Ideal) x0 x1 x2 x3 x4 x5 (ix2 a b)
      = PairMlp.pairOut (fun ch => x0 (ix2 b ch)) (fun ch => x1 (ix2 a ch)) x2 x3 x4 x5 1 := by
  unfold k0_pay3
  exact (plane1_apply _ a b).trans (pay1_apply x0 x1 x2 x3 x4 x5 1 a b)

end Cert.KernelIdeal.Block

end
-- ==== Proof.RegionValue.lean ====
/-
  What the region leaves in its two output arrays, over the extended reals.

  The grid has 12 × 6 points; point (gi, gj) holds rows 64·gi … 64·gi + 63 of the column-part array, rows
  128·gj … 128·gj + 127 of the row-part array, and writes the [64, 128] block at block index (gi, gj) of each
  [768, 768] output. By the body's value at an index (BlockValue) the entry (a, b) of that block is the score of the
  pair (64·gi + a, 128·gj + b), so each block is the restriction of ONE whole-array function, `PairMlp.scores` of
  the arrays as the region finds them; the 72 blocks tile the array, so after the run the array is that function.
-/
import proofs.«152906_j30296699306320_1_alg».proof.Proof.Gen.KernelIdeal.Frame
import proofs.«152906_j30296699306320_1_alg».proof.Proof.BlockValue
import Idealize.ShloMosaic.Lib.Pipeline.Value

noncomputable section

namespace Cert.KernelIdeal.Region

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- The arrays as the region finds them, each at its literal type. -/
abbrev rowsArr (c : Dev nD) : Vec Ideal S768x256 .f32 := V m c main_v2
abbrev colsArr (c : Dev nD) : Vec Ideal S768x256 .f32 := V m c main_v5
abbrev b1Arr (c : Dev nD) : Vec Ideal S256 .f32 := V m c main_arg2
abbrev w2Arr (c : Dev nD) : Vec Ideal S128x256 .f32 := V m c main_arg3
abbrev b2Arr (c : Dev nD) : Vec Ideal S128 .f32 := V m c main_arg4
abbrev wfArr (c : Dev nD) : Vec Ideal S2x128 .f32 := V m c main_arg5

/-- Score `k` of every pair, from the arrays as the region finds them: what output `k` ends holding. -/
abbrev scoresArr (c : Dev nD) (k : Fin 2) : Vec Ideal S768x768 .f32 :=
  PairMlp.scores (rowsArr m c) (colsArr m c) (b1Arr m c) (w2Arr m c) (b2Arr m c) (wfArr m c) k

/-- The printed index maps over the grid: the row-part window follows the output's column block, the column-part
    window its row block, the four small operands stay at block 0, the two outputs move together, and the output's
    block indices stay inside 12 × 6. -/
theorem idx_facts : ∀ t : Fin cfg0.N,
    win0_0.index t (0 : Fin 2) = win0_6.index t (1 : Fin 2) ∧ win0_0.index t (1 : Fin 2) = 0
    ∧ win0_1.index t (0 : Fin 2) = win0_6.index t (0 : Fin 2) ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_7.index t (0 : Fin 2) = win0_6.index t (0 : Fin 2) ∧ win0_7.index t (1 : Fin 2) = win0_6.index t (1 : Fin 2)
    ∧ win0_6.index t (0 : Fin 2) ≤ 11 ∧ win0_6.index t (1 : Fin 2) ≤ 5 :=
  (by decide +kernel : ∀ t : Fin grid0.N, _)

/-- Every block index of the 12 × 6 box is some point's. -/
theorem idx_onto : ∀ (q0 : Fin 12) (q1 : Fin 6), ∃ t : Fin cfg0.N, win0_6.index t = ![q0.val, q1.val] :=
  (by decide +kernel : ∀ (q0 : Fin 12) (q1 : Fin 6), ∃ t : Fin grid0.N, win0_6.index t = ![q0.val, q1.val])

/-! ## Each input block is rows of its array -/

/-- The row-part block at point `t`: row `x 0` of the block is row (block index · 128 + x 0) of the array. -/
theorem rows_block (c : Dev nD) (t : Fin cfg0.N) (x : S128x256.Idx) (i : S768x256.Idx)
    (h0 : (i 0).val = win0_0.index t (0 : Fin 2) * 128 + (x 0).val) (h1 : (i 1).val = win0_0.index t (1 : Fin 2) * 256 + (x 1).val) :
    (iblk m c 0 t : Vec Ideal S128x256 .f32) x = rowsArr m c i := by
  unfold iblk
  rw [View.read_apply]
  show V m c main_v2 (((cfg0.win 0).blk t).view.emb x) = V m c main_v2 i
  refine congrArg (V m c main_v2) (funext fun a => Fin.ext ?_)
  match a with
  | ⟨0, _⟩ => show win0_0.index t (0 : Fin 2) * 128 + 1 * (x 0).val = (i 0).val; omega
  | ⟨1, _⟩ => show win0_0.index t (1 : Fin 2) * 256 + 1 * (x 1).val = (i 1).val; omega

/-- The column-part block at point `t`. -/
theorem cols_block (c : Dev nD) (t : Fin cfg0.N) (x : S64x256.Idx) (i : S768x256.Idx)
    (h0 : (i 0).val = win0_1.index t (0 : Fin 2) * 64 + (x 0).val) (h1 : (i 1).val = win0_1.index t (1 : Fin 2) * 256 + (x 1).val) :
    (iblk m c 1 t : Vec Ideal S64x256 .f32) x = colsArr m c i := by
  unfold iblk
  rw [View.read_apply]
  show V m c main_v5 (((cfg0.win 1).blk t).view.emb x) = V m c main_v5 i
  refine congrArg (V m c main_v5) (funext fun a => Fin.ext ?_)
  match a with
  | ⟨0, _⟩ => show win0_1.index t (0 : Fin 2) * 64 + 1 * (x 0).val = (i 0).val; omega
  | ⟨1, _⟩ => show win0_1.index t (1 : Fin 2) * 256 + 1 * (x 1).val = (i 1).val; omega

/-- b1's one block is b1. -/
theorem b1_block (c : Dev nD) (t : Fin cfg0.N) : (iblk m c 2 t : Vec Ideal S256 .f32) = b1Arr m c := by
  obtain ⟨-, -, -, -, e, -⟩ := idx_facts t
  funext x
  unfold iblk
  rw [View.read_apply]
  show V m c main_arg2 (((cfg0.win 2).blk t).view.emb x) = V m c main_arg2 x
  refine congrArg (V m c main_arg2) (funext fun a => Fin.ext ?_)
  match a with
  | ⟨0, _⟩ => show win0_2.index t (0 : Fin 1) * 256 + 1 * (x 0).val = (x 0).val; omega

/-- W2's one block is W2. -/
theorem w2_block (c : Dev nD) (t : Fin cfg0.N) : (iblk m c 3 t : Vec Ideal S128x256 .f32) = w2Arr m c := by
  obtain ⟨-, -, -, -, -, e0, e1, -⟩ := idx_facts t
  funext x
  unfold iblk
  rw [View.read_apply]
  show V m c main_arg3 (((cfg0.win 3).blk t).view.emb x) = V m c main_arg3 x
  refine congrArg (V m c main_arg3) (funext fun a => Fin.ext ?_)
  match a with
  | ⟨0, _⟩ => show win0_3.index t (0 : Fin 2) * 128 + 1 * (x 0).val = (x 0).val; omega
  | ⟨1, _⟩ => show win0_3.index t (1 : Fin 2) * 256 + 1 * (x 1).val = (x 1).val; omega

/-- b2's one block is b2. -/
theorem b2_block (c : Dev nD) (t : Fin cfg0.N) : (iblk m c 4 t : Vec Ideal S128 .f32) = b2Arr m c := by
  obtain ⟨-, -, -, -, -, -, -, e, -⟩ := idx_facts t
  funext x
  unfold iblk
  rw [View.read_apply]
  show V m c main_arg4 (((cfg0.win 4).blk t).view.emb x) = V m c main_arg4 x
  refine congrArg (V m c main_arg4) (funext fun a => Fin.ext ?_)
  match a with
  | ⟨0, _⟩ => show win0_4.index t (0 : Fin 1) * 128 + 1 * (x 0).val = (x 0).val; omega

/-- Wf's one block is Wf. -/
theorem wf_block (c : Dev nD) (t : Fin cfg0.N) : (iblk m c 5 t : Vec Ideal S2x128 .f32) = wfArr m c := by
  obtain ⟨-, -, -, -, -, -, -, -, e0, e1, -⟩ := idx_facts t
  funext x
  unfold iblk
  rw [View.read_apply]
  show V m c main_arg5 (((cfg0.win 5).blk t).view.emb x) = V m c main_arg5 x
  refine congrArg (V m c main_arg5) (funext fun a => Fin.ext ?_)
  match a with
  | ⟨0, _⟩ => show win0_5.index t (0 : Fin 2) * 2 + 1 * (x 0).val = (x 0).val; omega
  | ⟨1, _⟩ => show win0_5.index t (1 : Fin 2) * 128 + 1 * (x 1).val = (x 1).val; omega

/-! ## A point's stored block is a block of the whole-array scores -/

/-- The score of the pair (row `b` of the point's row-part block, row `a` of its column-part block) is the whole-array
    score at (64·gi + a, 128·gj + b), for the point with output block index (gi, gj). -/
theorem point_scores (c : Dev nD) (t : Fin cfg0.N) (k : Fin 2) (a : Fin 64) (b : Fin 128) (i : S768x768.Idx)
    (hi0 : (i 0).val = win0_6.index t (0 : Fin 2) * 64 + a.val) (hi1 : (i 1).val = win0_6.index t (1 : Fin 2) * 128 + b.val) :
    PairMlp.pairOut (fun ch => (iblk m c 0 t : Vec Ideal S128x256 .f32) (ix2 b ch)) (fun ch => (iblk m c 1 t : Vec Ideal S64x256 .f32) (ix2 a ch))
        (iblk m c 2 t : Vec Ideal S256 .f32) (iblk m c 3 t : Vec Ideal S128x256 .f32) (iblk m c 4 t : Vec Ideal S128 .f32) (iblk m c 5 t : Vec Ideal S2x128 .f32) k
      = scoresArr m c k i := by
  obtain ⟨e0, e1, e2, e3, -⟩ := idx_facts t
  obtain ⟨I, J, rfl⟩ : ∃ (I J : Fin 768), i = ix2 I J := ⟨i 0, i 1, eq_ix2 i⟩
  have hr : (fun ch => (iblk m c 0 t : Vec Ideal S128x256 .f32) (ix2 b ch)) = fun ch => rowsArr m c (ix2 J ch) :=
    funext fun ch => rows_block m c t (ix2 b ch) (ix2 J ch) (by show J.val = _; rw [e0]; exact hi1) (by show ch.val = _ * 256 + ch.val; rw [e1]; omega)
  have hc : (fun ch => (iblk m c 1 t : Vec Ideal S64x256 .f32) (ix2 a ch)) = fun ch => colsArr m c (ix2 I ch) :=
    funext fun ch => cols_block m c t (ix2 a ch) (ix2 I ch) (by show I.val = _; rw [e2]; exact hi0) (by show ch.val = _ * 256 + ch.val; rw [e3]; omega)
  rw [hr, hc, b1_block, w2_block, b2_block, wf_block]
  rfl

/-- WHAT POINT `t` WRITES BACK into the first output is block `t` of the first score of every pair. -/
theorem flushed6_eq (c : Dev nD) (t : Fin cfg0.N) :
    (dats m 0 c).flushed 6 t = ((cfg0.win 6).blk t).view.read (Elt Ideal) (scoresArr m c 0) := by
  show (cfg0.win 6).cut (grid0.coords t) ((dats m 0 c).after 6 t) = _
  rw [after0_6]
  unfold out0_6
  rw [View.canon_unit_zero hz2]
  simp only [View.ld_unit_zero (S := S128x256) hz2, View.ld_unit_zero (S := S64x256) hz2, View.ld_unit_zero (S := S256) hz1,
    View.ld_unit_zero (S := S128) hz1, View.ld_unit_zero (S := S2x128) hz2]
  funext y
  rw [View.read_apply]
  show k0_pay2 (F := Ideal) (iblk m c 0 t) (iblk m c 1 t) (iblk m c 2 t) (iblk m c 3 t) (iblk m c 4 t) (iblk m c 5 t) (ix2 (y 0) (y 1)) = scoresArr m c 0 (((cfg0.win 6).blk t).view.emb y)
  refine (Block.pay2_apply (iblk m c 0 t) (iblk m c 1 t) (iblk m c 2 t) (iblk m c 3 t) (iblk m c 4 t) (iblk m c 5 t) (y 0) (y 1)).trans ?_
  exact point_scores m c t 0 (y 0) (y 1) _ (by show win0_6.index t (0 : Fin 2) * 64 + 1 * (y 0).val = _; omega) (by show win0_6.index t (1 : Fin 2) * 128 + 1 * (y 1).val = _; omega)

/-- The second output likewise holds the second score. -/
theorem flushed7_eq (c : Dev nD) (t : Fin cfg0.N) :
    (dats m 0 c).flushed 7 t = ((cfg0.win 7).blk t).view.read (Elt Ideal) (scoresArr m c 1) := by
  obtain ⟨-, -, -, -, -, -, -, -, -, -, e0, e1, -⟩ := idx_facts t
  show (cfg0.win 7).cut (grid0.coords t) ((dats m 0 c).after 7 t) = _
  rw [after0_7]
  unfold out0_7
  rw [View.canon_unit_zero hz2]
  simp only [View.ld_unit_zero (S := S128x256) hz2, View.ld_unit_zero (S := S64x256) hz2, View.ld_unit_zero (S := S256) hz1,
    View.ld_unit_zero (S := S128) hz1, View.ld_unit_zero (S := S2x128) hz2]
  funext y
  rw [View.read_apply]
  show k0_pay3 (F := Ideal) (iblk m c 0 t) (iblk m c 1 t) (iblk m c 2 t) (iblk m c 3 t) (iblk m c 4 t) (iblk m c 5 t) (ix2 (y 0) (y 1)) = scoresArr m c 1 (((cfg0.win 7).blk t).view.emb y)
  refine (Block.pay3_apply (iblk m c 0 t) (iblk m c 1 t) (iblk m c 2 t) (iblk m c 3 t) (iblk m c 4 t) (iblk m c 5 t) (y 0) (y 1)).trans ?_
  exact point_scores m c t 1 (y 0) (y 1) _ (by show win0_7.index t (0 : Fin 2) * 64 + 1 * (y 0).val = _; omega) (by show win0_7.index t (1 : Fin 2) * 128 + 1 * (y 1).val = _; omega)

/-! ## The blocks tile the array -/

/-- An index is in point `t`'s block of the first output iff each coordinate is in the block's range. -/
theorem mem_blk6 (t : Fin cfg0.N) (i : S768x768.Idx) :
    i ∈ ((cfg0.win 6).blk t).view.set ↔ ∀ a : Fin 2, win0_6.index t a * S64x128.size a ≤ (i a).val ∧ (i a).val < win0_6.index t a * S64x128.size a + S64x128.size a := by
  show i ∈ ((View.whole main_v6_0).slice (win0_6.rect t)).set ↔ _
  rw [View.set_slice_whole, Rect.mem_set_unit]
  exact Iff.rfl

theorem mem_blk7 (t : Fin cfg0.N) (i : S768x768.Idx) :
    i ∈ ((cfg0.win 7).blk t).view.set ↔ ∀ a : Fin 2, win0_7.index t a * S64x128.size a ≤ (i a).val ∧ (i a).val < win0_7.index t a * S64x128.size a + S64x128.size a := by
  show i ∈ ((View.whole main_v6_1).slice (win0_7.rect t)).set ↔ _
  rw [View.set_slice_whole, Rect.mem_set_unit]
  exact Iff.rfl

/-- Every index (I, J) lies in the block of the point whose output block index is (I / 64, J / 128). -/
theorem cover6 (i : S768x768.Idx) : ∃ t : Fin cfg0.N, (cfg0.win 6).flush t = true ∧ i ∈ ((cfg0.win 6).blk t).view.set := by
  have hi0 : (i 0).val < 768 := (i 0).isLt
  have hi1 : (i 1).val < 768 := (i 1).isLt
  obtain ⟨t, ht⟩ := idx_onto ⟨(i 0).val / 64, by omega⟩ ⟨(i 1).val / 128, by omega⟩
  have q0 : win0_6.index t (0 : Fin 2) = (i 0).val / 64 := congrFun ht 0
  have q1 : win0_6.index t (1 : Fin 2) = (i 1).val / 128 := congrFun ht 1
  refine ⟨t, flush0_6 t, ?_⟩
  rw [mem_blk6]
  intro a
  match a with
  | ⟨0, _⟩ => show win0_6.index t (0 : Fin 2) * 64 ≤ (i 0).val ∧ (i 0).val < win0_6.index t (0 : Fin 2) * 64 + 64; omega
  | ⟨1, _⟩ => show win0_6.index t (1 : Fin 2) * 128 ≤ (i 1).val ∧ (i 1).val < win0_6.index t (1 : Fin 2) * 128 + 128; omega

theorem cover7 (i : S768x768.Idx) : ∃ t : Fin cfg0.N, (cfg0.win 7).flush t = true ∧ i ∈ ((cfg0.win 7).blk t).view.set := by
  have hi0 : (i 0).val < 768 := (i 0).isLt
  have hi1 : (i 1).val < 768 := (i 1).isLt
  obtain ⟨t, ht⟩ := idx_onto ⟨(i 0).val / 64, by omega⟩ ⟨(i 1).val / 128, by omega⟩
  obtain ⟨-, -, -, -, -, -, -, -, -, -, e0, e1, -⟩ := idx_facts t
  have q0 : win0_6.index t (0 : Fin 2) = (i 0).val / 64 := congrFun ht 0
  have q1 : win0_6.index t (1 : Fin 2) = (i 1).val / 128 := congrFun ht 1
  refine ⟨t, flush0_7 t, ?_⟩
  rw [mem_blk7]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 128 ≤ (i 1).val ∧ (i 1).val < win0_7.index t (1 : Fin 2) * 128 + 128; omega

/-- THE FIRST OUTPUT after the run: the first score of every pair. -/
theorem final6 (c : Dev nD) : (dats m 0 c).arrAt 6 cfg0.N = scoresArr m c 0 :=
  (dats m 0 c).arrAt_eq_of_cover 6 (scoresArr m c 0) (fun t _ => flushed6_eq m c t) cover6

/-- THE SECOND OUTPUT after the run: the second score of every pair. -/
theorem final7 (c : Dev nD) : (dats m 0 c).arrAt 7 cfg0.N = scoresArr m c 1 :=
  (dats m 0 c).arrAt_eq_of_cover 7 (scoresArr m c 1) (fun t _ => flushed7_eq m c t) cover7

end Cert.KernelIdeal.Region

end
-- ==== Proof.HostRows.lean ====
/-
  The two arrays of rows the kernel's program computes on the host before its region: `z · (W1[:, :128])ᵀ` and
  `z · (W1[:, 128:])ᵀ`, read at an index, are `PairMlp.rowPart` and `PairMlp.colPart`.
-/
import proofs.«152906_j30296699306320_1_alg».proof.Proof.Gen.KernelIdeal.Frame
import proofs.«152906_j30296699306320_1_alg».proof.Proof.PairMlp
import proofs.«152906_j30296699306320_1_alg».proof.Proof.LibMatmul
import Idealize.ShloMosaic.Lib.Pipeline.Value
import Idealize.ShloMosaic.Lib.ValueIdx
import Idealize.ShloMosaic.Lib.StableHlo.Run

noncomputable section

namespace Cert.KernelIdeal.HostRows

open Idealize.ShloMosaic Idealize.ShloMosaic.TcCoe Idealize.SL.Sem Idealize.ShloMosaic.ValueIdx Cert.KernelIdeal Cert.KernelIdeal.Gen

/-- The host's three operations on the first half of W1: slice the first 128 columns, transpose, multiply z by it. -/
def rowsTerm (x0 : FVec Ideal S768x128 .f32) (x1 : FVec Ideal S256x256 .f32) : FVec Ideal S768x256 .f32 :=
  Host.dotGeneral (F := Ideal) (φ₁ := .f32) (φ₂ := .f32) dot_S768x128_S128x256_S768x256_1_0_0_1_n_n none x0
    (transpose S128x256 [1, 0] (extractStridedSlice S256x128 ![0, 0] x1 slices_S256x256_S256x128_0_0) transposes_S256x128_S128x256_1_0)

/-- The same on the second half of W1 (columns 128 to 255). -/
def colsTerm (x0 : FVec Ideal S768x128 .f32) (x1 : FVec Ideal S256x256 .f32) : FVec Ideal S768x256 .f32 :=
  Host.dotGeneral (F := Ideal) (φ₁ := .f32) (φ₂ := .f32) dot_S768x128_S128x256_S768x256_1_0_0_1_n_n none x0
    (transpose S128x256 [1, 0] (extractStridedSlice S256x128 ![0, 128] x1 slices_S256x256_S256x128_0_128) transposes_S256x128_S128x256_1_0)

/-- The host's dimension numbers are those of a plain 768×128 by 128×256 product: contract the left operand's second
    axis with the right operand's first, no batch axes. -/
theorem dot_eq_plain : dot_S768x128_S128x256_S768x256_1_0_0_1_n_n = DotDims.plain 768 128 256 := rfl

/-- The host's product of z with the transposed first half of W1, read at (j, ch). -/
theorem rows_apply (x0 : FVec Ideal S768x128 .f32) (x1 : FVec Ideal S256x256 .f32) (j : Fin 768) (ch : Fin 256) :
    rowsTerm x0 x1 (ix2 j ch) = PairMlp.rowPart x0 x1 j ch := by
  unfold rowsTerm
  simp only [Host.dotGeneral]
  rw [dot_eq_plain]
  refine (Cert.Matmul.dotGeneral_plain_apply _ _ x0 _ j ch).trans ?_
  unfold PairMlp.rowPart
  refine Finset.sum_congr rfl fun d _ => ?_
  refine congrArg (x0 (ix2 j d) * ·) ?_
  refine (transpose_apply [1, 0] _ transposes_S256x128_S128x256_1_0 (ix2 d ch) (ix2 ch d)
    (fun b => match b with | ⟨0, _⟩ => rfl | ⟨1, _⟩ => rfl)).trans ?_
  exact extractStridedSlice_apply ![0, 0] x1 slices_S256x256_S256x128_0_0 (ix2 ch d) (ix2 ch (PairMlp.lo d))
    (fun a => match a with
      | ⟨0, _⟩ => by show ch.val = 0 + ch.val; omega
      | ⟨1, _⟩ => by show d.val = 0 + d.val; omega)

/-- The host's product of z with the transposed second half of W1, read at (i, ch). -/
theorem cols_apply (x0 : FVec Ideal S768x128 .f32) (x1 : FVec Ideal S256x256 .f32) (i : Fin 768) (ch : Fin 256) :
    colsTerm x0 x1 (ix2 i ch) = PairMlp.colPart x0 x1 i ch := by
  unfold colsTerm
  simp only [Host.dotGeneral]
  rw [dot_eq_plain]
  refine (Cert.Matmul.dotGeneral_plain_apply _ _ x0 _ i ch).trans ?_
  unfold PairMlp.colPart
  refine Finset.sum_congr rfl fun d _ => ?_
  refine congrArg (x0 (ix2 i d) * ·) ?_
  refine (transpose_apply [1, 0] _ transposes_S256x128_S128x256_1_0 (ix2 d ch) (ix2 ch d)
    (fun b => match b with | ⟨0, _⟩ => rfl | ⟨1, _⟩ => rfl)).trans ?_
  exact extractStridedSlice_apply ![0, 128] x1 slices_S256x256_S256x128_0_128 (ix2 ch d) (ix2 ch (PairMlp.hi d))
    (fun a => match a with
      | ⟨0, _⟩ => by show ch.val = 0 + ch.val; omega
      | ⟨1, _⟩ => by show 128 + d.val = 128 + d.val; omega)

variable (m : (ℓ : Loc nD τ sig) → Buf (Elt Ideal) ℓ)

/-- The array of row parts as the region finds it. -/
theorem V_rows (c : Dev nD) :
    V m c main_v2 = rowsTerm (m ((c : Thread nD τ).loc main_arg0)) (m ((c : Thread nD τ).loc main_arg1)) := by
  show StableHlo.after hostOps0 (fun b => m (c, b)) (Proc.devRef .tc main_v2) = _
  after_results
  rfl

/-- The array of column parts as the region finds it. -/
theorem V_cols (c : Dev nD) :
    V m c main_v5 = colsTerm (m ((c : Thread nD τ).loc main_arg0)) (m ((c : Thread nD τ).loc main_arg1)) := by
  show StableHlo.after hostOps0 (fun b => m (c, b)) (Proc.devRef .tc main_v5) = _
  after_results
  rfl

/-- Row `j` of the array of row parts is cell `j`'s row part. -/
theorem V_rows_apply (c : Dev nD) (j : Fin 768) (ch : Fin 256) :
    (V m c main_v2 : S768x256.Idx → EReal) (ix2 j ch)
      = PairMlp.rowPart (m ((c : Thread nD τ).loc main_arg0)) (m ((c : Thread nD τ).loc main_arg1)) j ch := by
  rw [V_rows]; exact rows_apply _ _ j ch

/-- Row `i` of the array of column parts is cell `i`'s column part. -/
theorem V_cols_apply (c : Dev nD) (i : Fin 768) (ch : Fin 256) :
    (V m c main_v5 : S768x256.Idx → EReal) (ix2 i ch)
      = PairMlp.colPart (m ((c : Thread nD τ).loc main_arg0)) (m ((c : Thread nD τ).loc main_arg1)) i ch := by
  rw [V_cols]; exact cols_apply _ _ i ch

end Cert.KernelIdeal.HostRows

end
-- ==== Proof.KernelRun.lean ====
/-
  The kernel's program, run: its result array is `PairMlp.dists` of its arguments.

  After the region the program stacks the two [768, 768] outputs along a new last axis (each broadcast to
  [768, 768, 1], then concatenated) and adds bf broadcast over all pairs: entry (I, J, k) of the result is output `k`
  at (I, J) plus bf[k]. With the outputs at `PairMlp.scores` of the arrays as the region finds them (RegionValue), the
  two arrays of rows at `rowPart` / `colPart` (HostRows) and the four small operands as launched, that is
  `PairMlp.dists`.
-/
import proofs.«152906_j30296699306320_1_alg».proof.Proof.RegionValue
import proofs.«152906_j30296699306320_1_alg».proof.Proof.HostRows
import Idealize.ShloMosaic.Lib.StableHlo.Run

noncomputable section

namespace Cert.KernelIdeal.Run

open Idealize.ShloMosaic Idealize.ShloMosaic.TcCoe Idealize.SL.Sem Idealize.ShloMosaic.ValueIdx
open Idealize.ShloMosaic.Pipeline (Dat)
open Cert.KernelIdeal Cert.KernelIdeal.Gen

/-! ## The operations after the region, as one function of the two outputs and bf -/

/-- Stack the two outputs along a new last axis and add bf over all pairs. -/
def stackAddBias (o0 o1 : FVec Ideal S768x768 .f32) (bf : FVec Ideal S2 .f32) : FVec Ideal S768x768x2 .f32 :=
  addf (concatenate S768x768x2 2 [⟨S768x768x1, broadcastInDim S768x768x1 ![0, 1] bcast_S768x768_S768x768x1_0_1 o0⟩,
      ⟨S768x768x1, broadcastInDim S768x768x1 ![0, 1] bcast_S768x768_S768x768x1_0_1 o1⟩] concatenates_S768x768x1_S768x768x1_S768x768x2_d2)
    (broadcastInDim S768x768x2 ![0, 1, 2] bcast_S1x1x2_S768x768x2_0_1_2 (broadcastInDim S1x1x2 ![2] bcast_S2_S1x1x2_2 bf))

/-- An output with a unit last axis appended, at (I, J, 0), is the output at (I, J). -/
theorem unitAxis_apply (o : FVec Ideal S768x768 .f32) (I J : Fin 768) (u : Fin 1) :
    broadcastInDim S768x768x1 ![0, 1] bcast_S768x768_S768x768x1_0_1 o (ix3 I J u) = o (ix2 I J) :=
  broadcastInDim_apply _ bcast_S768x768_S768x768x1_0_1 o (ix3 I J u) (ix2 I J) (fun a => match a with
    | ⟨0, _⟩ => by show I.val = if (768 : Nat) = 1 then 0 else I.val; rw [if_neg (by decide)]
    | ⟨1, _⟩ => by show J.val = if (768 : Nat) = 1 then 0 else J.val; rw [if_neg (by decide)])

/-- bf broadcast over all pairs, at (I, J, k), is bf[k]. -/
theorem bias_apply (bf : FVec Ideal S2 .f32) (I J : Fin 768) (k : Fin 2) :
    broadcastInDim S768x768x2 ![0, 1, 2] bcast_S1x1x2_S768x768x2_0_1_2 (broadcastInDim S1x1x2 ![2] bcast_S2_S1x1x2_2 bf) (ix3 I J k)
      = bf (ix1 k) := by
  refine (broadcastInDim_apply _ bcast_S1x1x2_S768x768x2_0_1_2 _ (ix3 I J k) (ix3 (0 : Fin 1) (0 : Fin 1) k) (fun a => match a with
    | ⟨0, _⟩ => by show 0 = if (1 : Nat) = 1 then 0 else I.val; rw [if_pos rfl]
    | ⟨1, _⟩ => by show 0 = if (1 : Nat) = 1 then 0 else J.val; rw [if_pos rfl]
    | ⟨2, _⟩ => by show k.val = if (2 : Nat) = 1 then 0 else k.val; rw [if_neg (by decide)])).trans ?_
  exact broadcastInDim_apply _ bcast_S2_S1x1x2_2 bf (ix3 (0 : Fin 1) (0 : Fin 1) k) (ix1 k) (fun a => match a with
    | ⟨0, _⟩ => by show k.val = if (2 : Nat) = 1 then 0 else k.val; rw [if_neg (by decide)])

/-- The stacked array's plane k = 0 is the first output. -/
theorem stack_apply_zero (o0 o1 : FVec Ideal S768x768 .f32) (I J : Fin 768) :
    concatenate S768x768x2 2 [⟨S768x768x1, broadcastInDim S768x768x1 ![0, 1] bcast_S768x768_S768x768x1_0_1 o0⟩,
      ⟨S768x768x1, broadcastInDim S768x768x1 ![0, 1] bcast_S768x768_S768x768x1_0_1 o1⟩] concatenates_S768x768x1_S768x768x1_S768x768x2_d2
        (ix3 I J (0 : Fin 2)) = o0 (ix2 I J) := by
  refine (concatenate_pair_apply_left (s₁ := S768x768x1) (s₂ := S768x768x1) (2 : Fin 3) _ _ concatenates_S768x768x1_S768x768x1_S768x768x2_d2 (ix3 I J (0 : Fin 2)) rfl
    (ix3 I J (0 : Fin 1)) (fun b => match b with
      | ⟨0, _⟩ => rfl
      | ⟨1, _⟩ => rfl
      | ⟨2, _⟩ => rfl)).trans ?_
  exact unitAxis_apply o0 I J 0

/-- Its plane k = 1 is the second output. -/
theorem stack_apply_one (o0 o1 : FVec Ideal S768x768 .f32) (I J : Fin 768) :
    concatenate S768x768x2 2 [⟨S768x768x1, broadcastInDim S768x768x1 ![0, 1] bcast_S768x768_S768x768x1_0_1 o0⟩,
      ⟨S768x768x1, broadcastInDim S768x768x1 ![0, 1] bcast_S768x768_S768x768x1_0_1 o1⟩] concatenates_S768x768x1_S768x768x1_S768x768x2_d2
        (ix3 I J (1 : Fin 2)) = o1 (ix2 I J) := by
  refine (concatenate_pair_apply_right (s₁ := S768x768x1) (s₂ := S768x768x1) (2 : Fin 3) _ _ concatenates_S768x768x1_S768x768x1_S768x768x2_d2 (ix3 I J (1 : Fin 2)) rfl rfl
    (ix3 I J (0 : Fin 1)) (fun b hb => match b with
      | ⟨0, _⟩ => rfl
      | ⟨1, _⟩ => rfl
      | ⟨2, _⟩ => absurd rfl hb) rfl).trans ?_
  exact unitAxis_apply o1 I J 0

/-- Entry (I, J, k) of the stacked, biased result: output `k` at (I, J) plus bf[k]. -/
theorem stackAddBias_apply (o : Fin 2 → FVec Ideal S768x768 .f32) (bf : FVec Ideal S2 .f32) (I J : Fin 768) (k : Fin 2) :
    stackAddBias (o 0) (o 1) bf (ix3 I J k) = o k (ix2 I J) + bf (ix1 k) := by
  unfold stackAddBias
  show _ + _ = _
  rw [bias_apply]
  match k with
  | ⟨0, _⟩ => exact congrArg (· + bf (ix1 (0 : Fin 2))) (stack_apply_zero (o 0) (o 1) I J)
  | ⟨1, _⟩ => exact congrArg (· + bf (ix1 (1 : Fin 2))) (stack_apply_one (o 0) (o 1) I J)

variable (m : (ℓ : Loc nD τ sig) → Buf (Elt Ideal) ℓ) (ρ : Dev nD → PrngReg)

/-! ## The outputs in terms of the arguments -/

/-- Output `k` after the region, at (I, J): the score `k` of the pair (I, J), from the arguments as launched. -/
theorem scoresArr_apply (c : Dev nD) (k : Fin 2) (I J : Fin 768) :
    Region.scoresArr m c k (ix2 I J)
      = PairMlp.pairOut (PairMlp.rowPart (m ((c : Thread nD τ).loc main_arg0)) (m ((c : Thread nD τ).loc main_arg1)) J)
          (PairMlp.colPart (m ((c : Thread nD τ).loc main_arg0)) (m ((c : Thread nD τ).loc main_arg1)) I)
          (m ((c : Thread nD τ).loc main_arg2)) (m ((c : Thread nD τ).loc main_arg3)) (m ((c : Thread nD τ).loc main_arg4))
          (m ((c : Thread nD τ).loc main_arg5)) k := by
  show PairMlp.pairOut (fun ch => (V m c main_v2 : S768x256.Idx → EReal) (ix2 J ch)) (fun ch => (V m c main_v5 : S768x256.Idx → EReal) (ix2 I ch))
    (V m c main_arg2) (V m c main_arg3) (V m c main_arg4) (V m c main_arg5) k = _
  have hr : (fun ch => (V m c main_v2 : S768x256.Idx → EReal) (ix2 J ch))
      = PairMlp.rowPart (m ((c : Thread nD τ).loc main_arg0)) (m ((c : Thread nD τ).loc main_arg1)) J :=
    funext fun ch => HostRows.V_rows_apply m c J ch
  have hc : (fun ch => (V m c main_v5 : S768x256.Idx → EReal) (ix2 I ch))
      = PairMlp.colPart (m ((c : Thread nD τ).loc main_arg0)) (m ((c : Thread nD τ).loc main_arg1)) I :=
    funext fun ch => HostRows.V_cols_apply m c I ch
  rw [hr, hc, V_main_arg2, V_main_arg3, V_main_arg4, V_main_arg5]

/-! ## The result array -/

/-- What the operations after the region leave in the result array. -/
theorem tail_eq (c : Dev nD) :
    Pipeline.afterTail₀ cfgs (dats m) 0 (V0 m) [hostOps1] c main_v12
      = PairMlp.dists (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have e : Pipeline.afterTail₀ cfgs (dats m) 0 (V0 m) [hostOps1] c main_v12
      = stackAddBias (Region.scoresArr m c 0) (Region.scoresArr m c 1) (m ((c : Thread nD τ).loc main_arg6)) := by
    unfold Pipeline.afterTail₀
    show StableHlo.after hostOps1 _ (Proc.devRef .tc main_v12) = _
    after_results
    rw [Pipeline.withArrays_arr spec0 launch0.win.arr_inj c _ _ 6, Pipeline.withArrays_arr spec0 launch0.win.arr_inj c _ _ 7,
      Pipeline.withArrays_of_ne _ c (V0 m c) _ main_arg6 (by exact (by decide : ∀ w, Pipeline.arrRef spec0 w ≠ main_arg6)),
      Region.final6, Region.final7]
    show stackAddBias _ _ (V m c main_arg6) = _
    rw [V_main_arg6]
  rw [e]
  funext i
  obtain ⟨I, J, k, rfl⟩ : ∃ (I J : Fin 768) (k : Fin 2), i = ix3 I J k := ⟨i 0, i 1, i 2, eq_ix3 i⟩
  rw [PairMlp.dists_apply]
  refine (stackAddBias_apply (fun k => Region.scoresArr m c k) _ I J k).trans ?_
  show Region.scoresArr m c k (ix2 I J) + _ = _
  rw [scoresArr_apply]

/-- THE RUN: every weakly fair execution of the kernel's program terminates with the result array at `PairMlp.dists` of
    the arguments and the arguments unchanged. -/
theorem run : θ_run defs (onTc (τ := τ) (main (F := Ideal))) ⟨m, fun _ => 0, ρ⟩ fun r => ∀ c : Dev nD,
      r.2.mem ((c.tc : Thread nD τ).loc main_v12)
        = PairMlp.dists (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v12 (Pipeline.mem_restRefs_of main_v12 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ)

end Cert.KernelIdeal.Run

end
-- ==== Proof.RefValue.lean ====
/-
  The reference's result, stage by stage, is `PairMlp.dists` of its arguments.
-/
import proofs.«152906_j30296699306320_1_alg».proof.Proof.Gen.ReferenceIdeal.Read
import proofs.«152906_j30296699306320_1_alg».proof.Proof.PairMlp
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read

/-- The product of z with the first 128 columns of W1, read at (j, ch), is cell j's row part. -/
theorem v1_apply (x0 : Vec Ideal S768x128 .f32) (x1 : Vec Ideal S256x256 .f32) (j : Fin 768) (ch : Fin 256) :
    val_main_v1 (F := Ideal) x0 x1 (ix2 j ch) = PairMlp.rowPart x0 x1 j ch := by
  rw [val_main_v1_apply]
  unfold PairMlp.rowPart
  refine Finset.sum_congr rfl fun d _ => ?_
  rw [val_main_v0_apply]
  have e1 : lidx_main_v1 (ix2 j ch) d = ix2 j d :=
    funext fun a => Fin.ext (by match a with | ⟨0, _⟩ => rfl | ⟨1, _⟩ => rfl)
  have e2 : idx_main_v0 (ridx_main_v1 (ix2 j ch) d) = ix2 ch (PairMlp.lo d) :=
    funext fun a => Fin.ext (by match a with | ⟨0, _⟩ => rfl | ⟨1, _⟩ => rfl)
  rw [e1, e2]

/-- The product of z with the last 128 columns of W1, read at (i, ch), is cell i's column part. -/
theorem v3_apply (x0 : Vec Ideal S768x128 .f32) (x1 : Vec Ideal S256x256 .f32) (i : Fin 768) (ch : Fin 256) :
    val_main_v3 (F := Ideal) x0 x1 (ix2 i ch) = PairMlp.colPart x0 x1 i ch := by
  rw [val_main_v3_apply]
  unfold PairMlp.colPart
  refine Finset.sum_congr rfl fun d _ => ?_
  rw [val_main_v2_apply]
  have e1 : lidx_main_v3 (ix2 i ch) d = ix2 i d :=
    funext fun a => Fin.ext (by match a with | ⟨0, _⟩ => rfl | ⟨1, _⟩ => rfl)
  have e2 : idx_main_v2 (ridx_main_v3 (ix2 i ch) d) = ix2 ch (PairMlp.hi d) :=
    funext fun a => Fin.ext (by match a with | ⟨0, _⟩ => rfl | ⟨1, _⟩ => rfl)
  rw [e1, e2]

/-- The row parts broadcast along the first axis: entry (I, J, ch) is cell J's row part. -/
theorem v6_apply (x0 : Vec Ideal S768x128 .f32) (x1 : Vec Ideal S256x256 .f32) (I J : Fin 768) (ch : Fin 256) :
    val_main_v6 (F := Ideal) x0 x1 (ix3 I J ch) = PairMlp.rowPart x0 x1 J ch := by
  rw [val_main_v6_apply, val_main_v4_apply]
  have e : idx_main_v4 (idx_main_v6 (ix3 I J ch)) = ix2 J ch :=
    funext fun a => Fin.ext (by match a with | ⟨0, _⟩ => rfl | ⟨1, _⟩ => rfl)
  rw [e, v1_apply]

/-- The column parts broadcast along the second axis: entry (I, J, ch) is cell I's column part. -/
theorem v7_apply (x0 : Vec Ideal S768x128 .f32) (x1 : Vec Ideal S256x256 .f32) (I J : Fin 768) (ch : Fin 256) :
    val_main_v7 (F := Ideal) x0 x1 (ix3 I J ch) = PairMlp.colPart x0 x1 I ch := by
  rw [val_main_v7_apply, val_main_v5_apply]
  have e : idx_main_v5 (idx_main_v7 (ix3 I J ch)) = ix2 I ch :=
    funext fun a => Fin.ext (by match a with | ⟨0, _⟩ => rfl | ⟨1, _⟩ => rfl)
  rw [e, v3_apply]

/-- The first bias broadcast over all pairs: entry (I, J, ch) is b1[ch]. -/
theorem v10_apply (x2 : Vec Ideal S256 .f32) (I J : Fin 768) (ch : Fin 256) :
    val_main_v10 (F := Ideal) x2 (ix3 I J ch) = x2 (ix1 ch) := by
  rw [val_main_v10_apply, val_main_v9_apply]
  have e : idx_main_v9 (idx_main_v10 (ix3 I J ch)) = ix1 ch :=
    funext fun a => Fin.ext (by match a with | ⟨0, _⟩ => rfl)
  rw [e]

/-- The first layer before the relu: (row part of J + column part of I) + b1, channel by channel. -/
theorem v11_apply (x0 : Vec Ideal S768x128 .f32) (x1 : Vec Ideal S256x256 .f32) (x2 : Vec Ideal S256 .f32)
    (I J : Fin 768) (ch : Fin 256) :
    val_main_v11 (F := Ideal) x0 x1 x2 (ix3 I J ch)
      = (PairMlp.rowPart x0 x1 J ch + PairMlp.colPart x0 x1 I ch) + x2 (ix1 ch) := by
  rw [val_main_v11_apply, val_main_v8_apply, v6_apply, v7_apply, v10_apply]
  rfl

/-- The first hidden layer of the pair (I, J). -/
theorem v12_apply (x0 : Vec Ideal S768x128 .f32) (x1 : Vec Ideal S256x256 .f32) (x2 : Vec Ideal S256 .f32)
    (I J : Fin 768) (ch : Fin 256) :
    val_main_v12 (F := Ideal) x0 x1 x2 (ix3 I J ch)
      = PairMlp.hidden1 (PairMlp.rowPart x0 x1 J) (PairMlp.colPart x0 x1 I) x2 ch := by
  rw [val_main_v12_apply, v11_apply, val_main_call0_v0_apply, val_main_call0_cst_apply]
  unfold PairMlp.hidden1
  show max _ (Ideal.ofBits .f32 0x00000000#32) = _
  rw [Ideal.ofBits_zero_f32]

/-- The second bias broadcast over all pairs: entry (I, J, o) is b2[o]. -/
theorem v15_apply (x4 : Vec Ideal S128 .f32) (I J : Fin 768) (o : Fin 128) :
    val_main_v15 (F := Ideal) x4 (ix3 I J o) = x4 (ix1 o) := by
  rw [val_main_v15_apply, val_main_v14_apply]
  have e : idx_main_v14 (idx_main_v15 (ix3 I J o)) = ix1 o :=
    funext fun a => Fin.ext (by match a with | ⟨0, _⟩ => rfl)
  rw [e]

/-- The second layer's product: the sum over the 256 channels of the first hidden layer against row o of W2. -/
theorem v13_apply (x0 : Vec Ideal S768x128 .f32) (x1 : Vec Ideal S256x256 .f32) (x2 : Vec Ideal S256 .f32)
    (x3 : Vec Ideal S128x256 .f32) (I J : Fin 768) (o : Fin 128) :
    val_main_v13 (F := Ideal) x0 x1 x2 x3 (ix3 I J o)
      = ∑ ch : Fin 256, PairMlp.hidden1 (PairMlp.rowPart x0 x1 J) (PairMlp.colPart x0 x1 I) x2 ch * x3 (ix2 o ch) := by
  rw [val_main_v13_apply]
  refine Finset.sum_congr rfl fun ch _ => ?_
  have e1 : lidx_main_v13 (ix3 I J o) ch = ix3 I J ch :=
    funext fun a => Fin.ext (by match a with | ⟨0, _⟩ => rfl | ⟨1, _⟩ => rfl | ⟨2, _⟩ => rfl)
  have e2 : ridx_main_v13 (ix3 I J o) ch = ix2 o ch :=
    funext fun a => Fin.ext (by match a with | ⟨0, _⟩ => rfl | ⟨1, _⟩ => rfl)
  rw [e1, e2, v12_apply]

/-- The second hidden layer of the pair (I, J). -/
theorem v17_apply (x0 : Vec Ideal S768x128 .f32) (x1 : Vec Ideal S256x256 .f32) (x2 : Vec Ideal S256 .f32)
    (x3 : Vec Ideal S128x256 .f32) (x4 : Vec Ideal S128 .f32) (I J : Fin 768) (o : Fin 128) :
    val_main_v17 (F := Ideal) x0 x1 x2 x3 x4 (ix3 I J o)
      = PairMlp.hidden2 (PairMlp.rowPart x0 x1 J) (PairMlp.colPart x0 x1 I) x2 x3 x4 o := by
  rw [val_main_v17_apply, val_main_v16_apply, v13_apply, v15_apply, val_main_call1_v0_apply, val_main_call1_cst_apply]
  unfold PairMlp.hidden2
  show max _ (Ideal.ofBits .f32 0x00000000#32) = _
  rw [Ideal.ofBits_zero_f32]
  rfl

/-- The pair's score before the last bias. -/
theorem v18_apply (x0 : Vec Ideal S768x128 .f32) (x1 : Vec Ideal S256x256 .f32) (x2 : Vec Ideal S256 .f32)
    (x3 : Vec Ideal S128x256 .f32) (x4 : Vec Ideal S128 .f32) (x5 : Vec Ideal S2x128 .f32)
    (I J : Fin 768) (k : Fin 2) :
    val_main_v18 (F := Ideal) x0 x1 x2 x3 x4 x5 (ix3 I J k)
      = PairMlp.pairOut (PairMlp.rowPart x0 x1 J) (PairMlp.colPart x0 x1 I) x2 x3 x4 x5 k := by
  rw [val_main_v18_apply]
  unfold PairMlp.pairOut
  refine Finset.sum_congr rfl fun o _ => ?_
  have e1 : lidx_main_v18 (ix3 I J k) o = ix3 I J o :=
    funext fun a => Fin.ext (by match a with | ⟨0, _⟩ => rfl | ⟨1, _⟩ => rfl | ⟨2, _⟩ => rfl)
  have e2 : ridx_main_v18 (ix3 I J k) o = ix2 k o :=
    funext fun a => Fin.ext (by match a with | ⟨0, _⟩ => rfl | ⟨1, _⟩ => rfl)
  rw [e1, e2, v17_apply]

/-- The last bias broadcast over all pairs: entry (I, J, k) is bf[k]. -/
theorem v20_apply (x6 : Vec Ideal S2 .f32) (I J : Fin 768) (k : Fin 2) :
    val_main_v20 (F := Ideal) x6 (ix3 I J k) = x6 (ix1 k) := by
  rw [val_main_v20_apply, val_main_v19_apply]
  have e : idx_main_v19 (idx_main_v20 (ix3 I J k)) = ix1 k :=
    funext fun a => Fin.ext (by match a with | ⟨0, _⟩ => rfl)
  rw [e]

/-- The reference's last stage is the specification, index by index. -/
theorem result_eq (x0 : Vec Ideal S768x128 .f32) (x1 : Vec Ideal S256x256 .f32) (x2 : Vec Ideal S256 .f32)
    (x3 : Vec Ideal S128x256 .f32) (x4 : Vec Ideal S128 .f32) (x5 : Vec Ideal S2x128 .f32) (x6 : Vec Ideal S2 .f32) :
    val_main_v21 (F := Ideal) x0 x1 x2 x3 x4 x5 x6 = PairMlp.dists x0 x1 x2 x3 x4 x5 x6 := by
  funext i
  obtain ⟨I, J, k, rfl⟩ : ∃ (I J : Fin 768) (k : Fin 2), i = ix3 I J k := ⟨i 0, i 1, i 2, eq_ix3 i⟩
  rw [val_main_v21_apply, v18_apply, v20_apply]
  exact (PairMlp.dists_apply x0 x1 x2 x3 x4 x5 x6 I J k).symm

end Cert.ReferenceIdeal.RefValue

end
-- ==== Proof.lean ====
/-
  The pairwise two-layer perceptron kernel against its reference, equal over the extended reals.

  Both programs score every pair (i, j) of 768 cells from the concatenation (z[j], z[i]) by
      out = Wf · relu (W2 · relu (W1 · (z[j], z[i]) + b1) + b2) + bf,
  with W1 · (z[j], z[i]) split into cell j's part through W1's first 128 columns and cell i's part through its last 128
  (Proof/PairMlp.lean states this once, as `PairMlp.dists` of the seven arguments). The reference builds the whole
  [768, 768, 256] and [768, 768, 128] hidden layers on the host (Proof/RefValue.lean reads its stages at an index).
  The kernel's program forms the two [768, 256] arrays of parts on the host (Proof/HostRows.lean), then on a 12 × 6
  grid each point scores the 64 × 128 pairs of its block (Proof/BlockValue.lean: the body's value at an index), the
  72 blocks tile each of the two [768, 768] outputs (Proof/RegionValue.lean), and the host stacks the two outputs and
  adds bf (Proof/KernelRun.lean). The two sides associate every sum of two terms alike and differ only in how the
  finite sums over channels are grouped into tiles and in changes of float format, which are the identity on the
  extended reals; no distributive or cancelling law is used, so the precondition (finite inputs) is never opened.
  The ideal pass rewrote nothing in the kernel, so `preserves` is `True`. The three frames: the two kernel programs'
  are the generated frame certificates, the reference's is its generated run with the result dropped.
-/
import proofs.«152906_j30296699306320_1_alg».proof.Defs
import proofs.«152906_j30296699306320_1_alg».proof.Proof.Gen.Kernel
import proofs.«152906_j30296699306320_1_alg».proof.Proof.Gen.Kernel.Skeleton
import proofs.«152906_j30296699306320_1_alg».proof.Proof.Gen.Kernel.Launch
import proofs.«152906_j30296699306320_1_alg».proof.Proof.Gen.Kernel.Points
import proofs.«152906_j30296699306320_1_alg».proof.Proof.Gen.Kernel.Frame
import proofs.«152906_j30296699306320_1_alg».proof.Proof.Gen.KernelIdeal
import proofs.«152906_j30296699306320_1_alg».proof.Proof.Gen.KernelIdeal.Skeleton
import proofs.«152906_j30296699306320_1_alg».proof.Proof.Gen.KernelIdeal.Launch
import proofs.«152906_j30296699306320_1_alg».proof.Proof.Gen.KernelIdeal.Points
import proofs.«152906_j30296699306320_1_alg».proof.Proof.Gen.KernelIdeal.Frame
import proofs.«152906_j30296699306320_1_alg».proof.Proof.Gen.ReferenceIdeal
import proofs.«152906_j30296699306320_1_alg».proof.Proof.Gen.Pre_finite_inputs
import proofs.«152906_j30296699306320_1_alg».proof.Proof.Gen.ReferenceIdeal.Run
import proofs.«152906_j30296699306320_1_alg».proof.Proof.Gen.ReferenceIdeal.Read
import proofs.«152906_j30296699306320_1_alg».proof.Proof.KernelRun
import proofs.«152906_j30296699306320_1_alg».proof.Proof.RefValue
import Idealize.ShloMosaic.Adequacy
import Idealize.ShloMosaic.Init

noncomputable section

namespace Cert.Proof

open Idealize.ShloMosaic Idealize.SL.Sem

/-- The printed kernel's program terminates without a fault and leaves its arguments as launched. -/
theorem frame_kernel : Cert.frame_Kernel := fun m ρ _ => Cert.Kernel.Gen.frame m ρ

/-- So does the kernel's program read over the extended reals. -/
theorem frame_kernelIdeal : Cert.frame_KernelIdeal := fun m ρ _ => Cert.KernelIdeal.Gen.frame m ρ

/-- The reference terminates without a fault and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the seven arguments, both programs end with the result array at `PairMlp.dists` of
    the arguments: the kernel's by its run read back, the reference's by its stages read at an index. -/
theorem algebraic : Cert.algebraic_KernelIdeal_ReferenceIdeal := by
  intro m ρ m' ρ' _ hagree
  refine ⟨fun c => PairMlp.dists (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact (Cert.ReferenceIdeal.Read.val_main_v21_eq _ _ _ _ _ _ _).trans (Cert.ReferenceIdeal.RefValue.result_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
